-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x4096 : Shape := ⟨3, ![8, 512, 4096]⟩
abbrev S4096x4096 : Shape := ⟨2, ![4096, 4096]⟩
abbrev S1x4096 : Shape := ⟨2, ![1, 4096]⟩
abbrev S16x4096 : Shape := ⟨2, ![16, 4096]⟩
abbrev S_ : Shape := ⟨0, ![]⟩

class Facts : Prop where
  bcast_S_S8x512x4096 : S_.BroadcastsInDim S8x512x4096 (![] : Fin 0 → Fin S8x512x4096.rank)
  reducesTo_S8x512x4096_S_d0_1_2 : S8x512x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S1x4096 : S_.BroadcastsInDim S1x4096 (![] : Fin 0 → Fin S1x4096.rank)
  reducesTo_S1x4096_S_d0_1 : S1x4096.ReducesTo [0, 1] S_
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_arg4 : FVec F S16x4096 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  main_v23

def fn {F : FTy → Type} [FloatOps F] (main_arg0 : FVec F S8x512x4096 .f32) (main_arg1 : FVec F S4096x4096 .f32) (main_arg2 : FVec F S1x4096 .f32) (main_arg3 : FVec F S16x4096 .f32) (main_arg4 : FVec F S16x4096 .f32) : IVec S_ 1 :=
  let main_v0 : FVec F S8x512x4096 .f32 := Host.absf main_arg0
  let main_cst : FVec F S_ .f32 := constant S_ .f32 0x7F800000#32
  let main_v1 : FVec F S8x512x4096 .f32 := broadcastInDim S8x512x4096 ![] bcast_S_S8x512x4096 main_cst
  let main_v2 : IVec S8x512x4096 1 := cmpf .olt main_v0 main_v1
  let main_c : IVec S_ 1 := constantI S_ 1 1#1
  let main_v3 : IVec S_ 1 := (fun x v => Host.reduce IntOp.andi x v reducesTo_S8x512x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S1x4096 .f32 := Host.absf main_arg2
  let main_cst_2 : FVec F S_ .f32 := constant S_ .f32 0x7F800000#32
  let main_v10 : FVec F S1x4096 .f32 := broadcastInDim S1x4096 ![] bcast_S_S1x4096 main_cst_2
  let main_v11 : IVec S1x4096 1 := cmpf .olt main_v9 main_v10
  let main_c_3 : IVec S_ 1 := constantI S_ 1 1#1
  let main_v12 : IVec S_ 1 := (fun x v => Host.reduce IntOp.andi x v reducesTo_S1x4096_S_d0_1 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S8x512x4096 : Shape := ⟨3, ![8, 512, 4096]⟩
abbrev S4096x4096 : Shape := ⟨2, ![4096, 4096]⟩
abbrev S1x4096 : Shape := ⟨2, ![1, 4096]⟩
abbrev S16x4096 : Shape := ⟨2, ![16, 4096]⟩
abbrev S4096x16 : Shape := ⟨2, ![4096, 16]⟩
abbrev S1024x4096 : Shape := ⟨2, ![1024, 4096]⟩
abbrev S4096x1024 : Shape := ⟨2, ![4096, 1024]⟩
abbrev S1024x16 : Shape := ⟨2, ![1024, 16]⟩
abbrev S16x1024 : Shape := ⟨2, ![16, 1024]⟩
abbrev S1x1024 : Shape := ⟨2, ![1, 1024]⟩
abbrev S1024x1024 : Shape := ⟨2, ![1024, 1024]⟩

abbrev nBuf : Space → Nat
  | .hbm => 15
  | .vmem => 12
  | .smem => 0
  | _ => 0

abbrev bufTy : (tb : Table) → Fin (tcTables nBuf tb) → BufTy
  | .hbm, ⟨0, _⟩ => ⟨S8x512x4096, .f32⟩
  | .hbm, ⟨1, _⟩ => ⟨S4096x4096, .f32⟩
  | .hbm, ⟨2, _⟩ => ⟨S1x4096, .f32⟩
  | .hbm, ⟨3, _⟩ => ⟨S16x4096, .f32⟩
  | .hbm, ⟨4, _⟩ => ⟨S16x4096, .f32⟩
  | .hbm, ⟨5, _⟩ => ⟨S4096x4096, .f32⟩
  | .hbm, ⟨6, _⟩ => ⟨S4096x4096, .bf16⟩
  | .hbm, ⟨7, _⟩ => ⟨S4096x4096, .bf16⟩
  | .hbm, ⟨8, _⟩ => ⟨S4096x16, .f32⟩
  | .hbm, ⟨9, _⟩ => ⟨S4096x16, .bf16⟩
  | .hbm, ⟨10, _⟩ => ⟨S16x4096, .bf16⟩
  | .hbm, ⟨11, _⟩ => ⟨S4096x16, .f32⟩
  | .hbm, ⟨12, _⟩ => ⟨S4096x16, .bf16⟩
  | .hbm, ⟨13, _⟩ => ⟨S4096x4096, .f32⟩
  | .hbm, ⟨14, _⟩ => ⟨S8x512x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x16, .bf16⟩
  | .local _ .vmem, ⟨5, _⟩ => ⟨S1024x16, .bf16⟩
  | .local _ .vmem, ⟨6, _⟩ => ⟨S16x1024, .bf16⟩
  | .local _ .vmem, ⟨7, _⟩ => ⟨S16x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | _, _ => ⟨S8x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S8x512x4096_S4096x4096 : S8x512x4096.ShapeCasts S4096x4096
  bitsLt_bf16_f32 : FTy.bits .bf16 < FTy.bits .f32
  transposes_S16x4096_S4096x16_1_0 : S16x4096.Transposes [1, 0] S4096x16
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S1x1024_S1x1024_0_0 : ∀ a, (![0, 0] : Fin 2 → Nat) a + S1x1024.size a ≤ S1x1024.size a
  h_S1x1024 : 0 < S1x1024.numel
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S4096x4096_S8x512x4096 : S4096x4096.ShapeCasts S8x512x4096
  dot_S4096x4096_S4096x16_S4096x16_1_0_0_1_n_n_wf : DotDims.WF S4096x4096 S4096x16 S4096x16 [1] [0] [0] [1] [] []
  dot_S1024x4096_S4096x1024_S1024x1024_1_0_0_1_n_n_wf : DotDims.WF S1024x4096 S4096x1024 S1024x1024 [1] [0] [0] [1] [] []
  dot_S1024x16_S16x1024_S1024x1024_1_0_0_1_n_n_wf : DotDims.WF S1024x16 S16x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S4096x4096.size a
  hwx0_0 : ∀ i : grid0.Coords, EltTy.bits .bf16 = 32 ∨ (Rect.block (s := S4096x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x4096.size a
  hwx0_1 : ∀ i : grid0.Coords, EltTy.bits .bf16 = 32 ∨ (Rect.block (s := S4096x4096) S4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S4096x16.size a
  hwx0_2 : ∀ i : grid0.Coords, EltTy.bits .bf16 = 32 ∨ (Rect.block (s := S4096x16) S1024x16.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S16x4096.size a
  hwx0_3 : ∀ i : grid0.Coords, EltTy.bits .bf16 = 32 ∨ (Rect.block (s := S16x4096) S16x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S4096x4096.size a
  hwx0_5 : ∀ i : grid0.Coords, EltTy.bits .f32 = 32 ∨ (Rect.block (s := S4096x4096) S1024x1024.size (cc0_transform_5 i) (hinb0_5 i)).WholeWords (EltTy.packing .f32)

variable [Facts₀]

def dot_S4096x4096_S4096x16_S4096x16_1_0_0_1_n_n : DotDims S4096x4096 S4096x16 S4096x16 where
  lhsContracting := [1]
  rhsContracting := [0]
  lhsNonContracting := [0]
  rhsNonContracting := [1]
  lhsBatch := []
  rhsBatch := []
  wf := dot_S4096x4096_S4096x16_S4096x16_1_0_0_1_n_n_wf
def dot_S1024x4096_S4096x1024_S1024x1024_1_0_0_1_n_n : DotDims S1024x4096 S4096x1024 S1024x1024 where
  lhsContracting := [1]
  rhsContracting := [0]
  lhsNonContracting := [0]
  rhsNonContracting := [1]
  lhsBatch := []
  rhsBatch := []
  wf := dot_S1024x4096_S4096x1024_S1024x1024_1_0_0_1_n_n_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf

abbrev win0_0 : Pipeline.Window sig grid0 :=
  Pipeline.Window.ofSpec (Memref.whole main_v1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S16x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x512x4096 : Shape := ⟨3, ![8, 512, 4096]⟩
abbrev S4096x4096 : Shape := ⟨2, ![4096, 4096]⟩
abbrev S1x4096 : Shape := ⟨2, ![1, 4096]⟩
abbrev S16x4096 : Shape := ⟨2, ![16, 4096]⟩
abbrev S_ : Shape := ⟨0, ![]⟩
abbrev S4096x16 : Shape := ⟨2, ![4096, 16]⟩
abbrev S512x16 : Shape := ⟨2, ![512, 16]⟩
abbrev S512x1024 : Shape := ⟨2, ![512, 1024]⟩
abbrev S1024x512 : Shape := ⟨2, ![1024, 512]⟩
abbrev S16x512 : Shape := ⟨2, ![16, 512]⟩
abbrev S1x512 : Shape := ⟨2, ![1, 512]⟩
abbrev S512x512 : Shape := ⟨2, ![512, 512]⟩

abbrev nBuf : Space → Nat
  | .hbm => 16
  | .vmem => 13
  | .smem => 0
  | _ => 0

abbrev bufTy : (tb : Table) → Fin (tcTables nBuf tb) → BufTy
  | .hbm, ⟨0, _⟩ => ⟨S8x512x4096, .f32⟩
  | .hbm, ⟨1, _⟩ => ⟨S4096x4096, .f32⟩
  | .hbm, ⟨2, _⟩ => ⟨S1x4096, .f32⟩
  | .hbm, ⟨3, _⟩ => ⟨S16x4096, .f32⟩
  | .hbm, ⟨4, _⟩ => ⟨S16x4096, .f32⟩
  | .hbm, ⟨5, _⟩ => ⟨S4096x4096, .f32⟩
  | .hbm, ⟨6, _⟩ => ⟨S_, .i32⟩
  | .hbm, ⟨7, _⟩ => ⟨S_, .f32⟩
  | .hbm, ⟨8, _⟩ => ⟨S4096x4096, .f32⟩
  | .hbm, ⟨9, _⟩ => ⟨S4096x16, .f32⟩
  | .hbm, ⟨10, _⟩ => ⟨S4096x16, .f32⟩
  | .hbm, ⟨11, _⟩ => ⟨S_, .i32⟩
  | .hbm, ⟨12, _⟩ => ⟨S_, .f32⟩
  | .hbm, ⟨13, _⟩ => ⟨S4096x16, .f32⟩
  | .hbm, ⟨14, _⟩ => ⟨S4096x4096, .f32⟩
  | .hbm, ⟨15, _⟩ => ⟨S8x512x4096, .f32⟩
  | .local _ .vmem, ⟨0, _⟩ => ⟨S512x16, .f32⟩
  | .local _ .vmem, ⟨1, _⟩ => ⟨S512x16, .f32⟩
  | .local _ .vmem, ⟨2, _⟩ => ⟨S512x1024, .f32⟩
  | .local _ .vmem, ⟨3, _⟩ => ⟨S512x1024, .f32⟩
  | .local _ .vmem, ⟨4, _⟩ => ⟨S1024x512, .f32⟩
  | .local _ .vmem, ⟨5, _⟩ => ⟨S1024x512, .f32⟩
  | .local _ .vmem, ⟨6, _⟩ => ⟨S16x512, .f32⟩
  | .local _ .vmem, ⟨7, _⟩ => ⟨S16x512, .f32⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | _, _ => ⟨S8x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S8x512x4096_S4096x4096 : S8x512x4096.ShapeCasts S4096x4096
  pads_S4096x4096_S4096x4096_000_000 : S4096x4096.Pads (![0, 0] : Fin 2 → Nat) ![0, 0] ![0, 0] S4096x4096
  h_S_ : 0 < S_.numel
  transposes_S16x4096_S4096x16_1_0 : S16x4096.Transposes [1, 0] S4096x16
  pads_S4096x16_S4096x16_000_000 : S4096x16.Pads (![0, 0] : Fin 2 → Nat) ![0, 0] ![0, 0] S4096x16
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x512_S1024x512_0_0 : ∀ a, (![0, 0] : Fin 2 → Nat) a + S1024x512.size a ≤ S1024x512.size a
  h_S1024x512 : 0 < S1024x512.numel
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S16x512_S16x512_0_0 : ∀ a, (![0, 0] : Fin 2 → Nat) a + S16x512.size a ≤ S16x512.size a
  h_S16x512 : 0 < S16x512.numel
  inb_S1x512_S1x512_0_0 : ∀ a, (![0, 0] : Fin 2 → Nat) a + S1x512.size a ≤ S1x512.size a
  h_S1x512 : 0 < S1x512.numel
  broadcasts_S1x512_S512x512 : S1x512.Broadcasts S512x512
  shapeCasts_S4096x4096_S8x512x4096 : S4096x4096.ShapeCasts S8x512x4096
  dot_S4096x4096_S4096x16_S4096x16_1_0_0_1_n_n_wf : DotDims.WF S4096x4096 S4096x16 S4096x16 [1] [0] [0] [1] [] []
  dot_S512x1024_S1024x512_S512x512_1_0_0_1_n_n_wf : DotDims.WF S512x1024 S1024x512 S512x512 [1] [0] [0] [1] [] []
  dot_S512x16_S16x512_S512x512_1_0_0_1_n_n_wf : DotDims.WF S512x16 S16x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x16.size a ≤ S4096x16.size a
  hwx0_0 : ∀ i : grid0.Coords, EltTy.bits .f32 = 32 ∨ (Rect.block (s := S4096x16) S512x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x4096.size a
  hwx0_2 : ∀ i : grid0.Coords, EltTy.bits .f32 = 32 ∨ (Rect.block (s := S4096x4096) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x512.size a ≤ S16x4096.size a
  hwx0_3 : ∀ i : grid0.Coords, EltTy.bits .f32 = 32 ∨ (Rect.block (s := S16x4096) S16x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S4096x4096.size a
  hwx0_5 : ∀ i : grid0.Coords, EltTy.bits .f32 = 32 ∨ (Rect.block (s := S4096x4096) S512x512.size (cc0_transform_5 i) (hinb0_5 i)).WholeWords (EltTy.packing .f32)

variable [Facts₀]

def dot_S4096x4096_S4096x16_S4096x16_1_0_0_1_n_n : DotDims S4096x4096 S4096x16 S4096x16 where
  lhsContracting := [1]
  rhsContracting := [0]
  lhsNonContracting := [0]
  rhsNonContracting := [1]
  lhsBatch := []
  rhsBatch := []
  wf := dot_S4096x4096_S4096x16_S4096x16_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x16_S16x512_S512x512_1_0_0_1_n_n : DotDims S512x16 S16x512 S512x512 where
  lhsContracting := [1]
  rhsContracting := [0]
  lhsNonContracting := [0]
  rhsNonContracting := [1]
  lhsBatch := []
  rhsBatch := []
  wf := dot_S512x16_S16x512_S512x512_1_0_0_1_n_n_wf

abbrev win0_0 : Pipeline.Window sig grid0 :=
  Pipeline.Window.ofSpec (Memref.whole main_v4) S512x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S16x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== Proof.LoraSpec.lean ====
/-
  The rank-16 LoRA linear map over the extended reals, stated once for both programs.

  With `X` the 4096 × 4096 matrix of the flattened activations, `W` the weight in (K, N) layout, `A` the 16 × 4096
  down-projection, `Bt` the 16 × 4096 up-projection (scale folded in) and `b` the bias row,

      P[r, j] = Σₖ X[r, k] · A[j, k]                         (the hoisted projection x · Aᵀ)
      Y[r, n] = (Σₖ X[r, k] · W[k, n] + Σⱼ P[r, j] · Bt[j, n]) + b[0, n].

  One program contracts the K axis in one sum of 4096 products; the other adds four partial sums of 1024 products
  each into an accumulator that starts at zero. Over the extended reals `+` is commutative and associative and `0`
  is neutral (with −∞ absorbing), so the two groupings are one number: `sum_chunks4`. No finiteness is needed.
-/
import Idealize.ShloMosaic.PureOps.Ideal
import Idealize.ShloMosaic.Lib.ValueIdx

noncomputable section

open scoped BigOperators

namespace Cert.LoraSpec

open Idealize.ShloMosaic Idealize.ShloMosaic.ValueIdx

/-- A matrix of extended reals by row and column. -/
abbrev Mat (a b : Nat) : Type := Fin a → Fin b → EReal

/-- A rank-2 array read as a matrix: entry (r, k) is the array at the index with those coordinates. -/
def mat {a b : Nat} (v : (⟨2, ![a, b]⟩ : Shape).Idx → EReal) : Mat a b := fun r k => v (ix2 r k)

/-- A matrix laid out as a rank-2 array. -/
def arr {a b : Nat} (f : Mat a b) : (⟨2, ![a, b]⟩ : Shape).Idx → EReal := fun i => f (i 0) (i 1)

theorem arr_ix2 {a b : Nat} (f : Mat a b) (r : Fin a) (k : Fin b) : arr f (ix2 r k) = f r k := rfl

theorem mat_apply {a b : Nat} (v : (⟨2, ![a, b]⟩ : Shape).Idx → EReal) (r : Fin a) (k : Fin b) : mat v r k = v (ix2 r k) := rfl

/-- The hoisted projection `x · Aᵀ`: row r of X against row j of A. -/
def proj (X : Mat 4096 4096) (A : Mat 16 4096) : Mat 4096 16 := fun r j => ∑ k : Fin 4096, X r k * A j k

/-- The LoRA linear map: the full product, plus the rank-16 correction, plus the bias row. -/
def lin (X W : Mat 4096 4096) (P : Mat 4096 16) (Bt : Mat 16 4096) (b : Mat 1 4096) : Mat 4096 4096 :=
  fun r n => ((∑ k : Fin 4096, X r k * W k n) + ∑ j : Fin 16, P r j * Bt j n) + b 0 n

/-- The whole function of the five argument arrays: flatten the activations to 4096 rows, apply the map, and give the
    rows their (8, 512) leading axes back. -/
def result (x : FVec Ideal ⟨3, ![8, 512, 4096]⟩ .f32) (w : FVec Ideal ⟨2, ![4096, 4096]⟩ .f32)
    (bias : FVec Ideal ⟨2, ![1, 4096]⟩ .f32) (a bt : FVec Ideal ⟨2, ![16, 4096]⟩ .f32)
    (h1 : (⟨3, ![8, 512, 4096]⟩ : Shape).ShapeCasts ⟨2, ![4096, 4096]⟩)
    (h2 : (⟨2, ![4096, 4096]⟩ : Shape).ShapeCasts ⟨3, ![8, 512, 4096]⟩) : FVec Ideal ⟨3, ![8, 512, 4096]⟩ .f32 :=
  shapeCast ⟨3, ![8, 512, 4096]⟩
    (arr (lin (mat (shapeCast ⟨2, ![4096, 4096]⟩ x h1)) (mat w)
      (proj (mat (shapeCast ⟨2, ![4096, 4096]⟩ x h1)) (mat a)) (mat bt) (mat bias))) h2

/-- Position `kk` of the `κ`-th run of 1024 along an axis of 4096. -/
def chunk (κ : Fin 4) (kk : Fin 1024) : Fin 4096 := ⟨1024 * κ.val + kk.val, by have := κ.isLt; have := kk.isLt; omega⟩

theorem chunk_val (κ : Fin 4) (kk : Fin 1024) : (chunk κ kk).val = 1024 * κ.val + kk.val := rfl

/-- A sum over 4096 positions is the sum over the four runs of the sums inside each run. -/
theorem sum_chunks (f : Fin 4096 → EReal) : ∑ k : Fin 4096, f k = ∑ κ : Fin 4, ∑ kk : Fin 1024, f (chunk κ kk) := by
  rw [← Equiv.sum_comp (finProdFinEquiv (m := 4) (n := 1024)) f, Fintype.sum_prod_type]
  refine Finset.sum_congr rfl fun κ _ => Finset.sum_congr rfl fun kk _ => congrArg f (Fin.ext ?_)
  show kk.val + 1024 * κ.val = 1024 * κ.val + kk.val
  omega

/-- The accumulator's order: zero, then the four partial sums added first to last, is the one sum. -/
theorem sum_chunks4 (f : Fin 4096 → EReal) :
    ((((0 + ∑ kk : Fin 1024, f (chunk 0 kk)) + ∑ kk : Fin 1024, f (chunk 1 kk)) + ∑ kk : Fin 1024, f (chunk 2 kk))
      + ∑ kk : Fin 1024, f (chunk 3 kk)) = ∑ k : Fin 4096, f k := by
  rw [sum_chunks, Fin.sum_univ_four, zero_add]

end Cert.LoraSpec

end
-- ==== Proof.LibPlainDot.lean ====
/-
  A product of an M × K matrix by a K × N matrix, read at one entry.

  A dot's dimension numbers that contract the left operand's axis 1 against the right operand's axis 0, keep the left
  operand's axis 0 and the right operand's axis 1 in that order, and batch nothing, describe the plain matrix product.
  Its contraction index set has one axis of extent K, so the sum over it is a sum over `Fin K`, and at the result
  entry (p, q) the left operand is read at (p, k) and the right operand at (k, q). Generic in the three extents and in
  the record (any record with those six lists), so one statement serves every plain product of a program, on the
  matrix unit (`FloatOps.matmul` into a zero accumulator) and on the host (`FloatOps.dotGeneral`).
-/
import Idealize.ShloMosaic.PureOps.Ideal
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The six lists of a plain matrix product's dimension numbers. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

theorem IsPlain.rank (h : IsPlain d) : d.contr.rank = 1 := by rw [d.rank_contr, h.lc]; rfl

theorem IsPlain.size (h : IsPlain d) : d.contr.size ⟨0, by rw [h.rank]; exact Nat.one_pos⟩ = K := by
  have := d.size_contr 0 (by rw [h.lc]; exact Nat.one_pos)
  rw [this]
  simp only [h.lc]
  rfl

/-- The left operand's row at a result entry is the entry's row. -/
theorem IsPlain.lhs_row (h : IsPlain d) (j : (⟨2, ![M, N]⟩ : Shape).Idx) (k : d.contr.Idx) :
    (d.lhsIdx j k 0).val = (j 0).val := by
  unfold DotDims.lhsIdx
  have hb : (0 : Fin 2) ∉ d.lhsBatch := by rw [h.lb]; exact List.not_mem_nil
  have hn : (0 : Fin 2) ∈ d.lhsNonContracting := by rw [h.ln]; exact List.mem_singleton.mpr rfl
  rw [dif_neg hb, dif_pos hn]
  simp only [Fin.val_cast]
  have key : ∀ (a b : Nat) (ha : a < 2) (hb : b < 2), a = b → (j ⟨a, ha⟩).val = (j ⟨b, hb⟩).val :=
    fun a b ha hb e => by subst e; rfl
  exact key _ _ _ _ (by simp [h.lb, h.ln])

/-- The right operand's column at a result entry is the entry's column. -/
theorem IsPlain.rhs_col (h : IsPlain d) (j : (⟨2, ![M, N]⟩ : Shape).Idx) (k : d.contr.Idx) :
    (d.rhsIdx j k 1).val = (j 1).val := by
  unfold DotDims.rhsIdx
  have hb : (1 : Fin 2) ∉ d.rhsBatch := by rw [h.rb]; exact List.not_mem_nil
  have hn : (1 : Fin 2) ∈ d.rhsNonContracting := by rw [h.rn]; exact List.mem_singleton.mpr rfl
  rw [dif_neg hb, dif_pos hn]
  simp only [Fin.val_cast]
  have key : ∀ (a b : Nat) (ha : a < 2) (hb : b < 2), a = b → (j ⟨a, ha⟩).val = (j ⟨b, hb⟩).val :=
    fun a b ha hb e => by subst e; rfl
  exact key _ _ _ _ (by simp [h.lb, h.ln, h.rn])

/-- The contraction positions are `Fin K`. -/
def IsPlain.equiv (h : IsPlain d) : d.contr.Idx ≃ Fin K := contrEquiv1 d K h.rank h.size

/-- The left operand's index at entry (p, q) and position k is (p, k). -/
theorem IsPlain.lhsIdx_eq (h : IsPlain d) (p : Fin M) (q : Fin N) (k : Fin K) :
    d.lhsIdx (ix2 p q) (h.equiv.symm k) = ix2 p k := by
  funext a
  apply Fin.ext
  match a with
  | ⟨0, _⟩ => exact h.lhs_row (ix2 p q) _
  | ⟨1, _⟩ =>
    exact (d.lhsIdx_val_of_single h.lc (ix2 p q) _).trans (contrEquiv1_symm_val d K h.rank h.size k)

/-- The right operand's index at entry (p, q) and position k is (k, q). -/
theorem IsPlain.rhsIdx_eq (h : IsPlain d) (p : Fin M) (q : Fin N) (k : Fin K) :
    d.rhsIdx (ix2 p q) (h.equiv.symm k) = ix2 k q := by
  funext a
  apply Fin.ext
  match a with
  | ⟨0, _⟩ =>
    exact (d.rhsIdx_val_of_single h.rc (ix2 p q) _).trans (contrEquiv1_symm_val d K h.rank h.size k)
  | ⟨1, _⟩ => exact h.rhs_col (ix2 p q) _

/-- The contraction's sum at entry (p, q) is the textbook sum over k of left (p, k) times right (k, q). -/
theorem IsPlain.sum_eq (h : IsPlain d) (l : (⟨2, ![M, K]⟩ : Shape).Idx → EReal) (r : (⟨2, ![K, N]⟩ : Shape).Idx → EReal)
    (p : Fin M) (q : Fin N) :
    ∑ k : d.contr.Idx, l (d.lhsIdx (ix2 p q) k) * r (d.rhsIdx (ix2 p q) k) = ∑ k : Fin K, l (ix2 p k) * r (ix2 k q) := by
  rw [← Equiv.sum_comp h.equiv.symm]
  exact Finset.sum_congr rfl fun k _ => by rw [h.lhsIdx_eq, h.rhsIdx_eq]

/-- A matrix-unit product into the zero accumulator, at entry (p, q). -/
theorem IsPlain.matmul_zero_apply (h : IsPlain d) {φ₁ φ₂ : FTy} (prec : Option ContractPrecision)
    (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) :=
  (Ideal.matmul_constant_zero_apply d prec l r (ix2 p q)).trans (h.sum_eq l r p q)

/-- The host's product, at entry (p, q). -/
theorem IsPlain.dotGeneral_apply (h : IsPlain d) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (h.sum_eq l r p q)

end Cert.LibPlainDot

end
-- ==== Proof.KHost.lean ====
/-
  The arrays the kernel's one region finds when it is entered, as functions of the five arguments.

  Before the region the program flattens the activations to 4096 rows, narrows every operand to bf16 (over the
  extended reals a change of float format is the identity), transposes `A` and forms the hoisted projection
  `x · Aᵀ` with one host product. So, entry by entry, the region's windows stage: X itself, W itself, the projection
  P[r, j] = Σₖ X[r, k] · A[j, k], the up-projection Bt itself, and the bias row.
-/
import proofs.«168310_g2000706549906588_pallasbulk_644_2_alg».proof.Proof.Gen.KernelIdeal.Frame
import proofs.«168310_g2000706549906588_pallasbulk_644_2_alg».proof.Proof.LoraSpec
import proofs.«168310_g2000706549906588_pallasbulk_644_2_alg».proof.Proof.LibPlainDot
import Idealize.ShloMosaic.Lib.StableHlo.Run
import Idealize.ShloMosaic.Lib.ValueIdx
import Idealize.ShloMosaic.Lib.ValueLayout

noncomputable section

open scoped BigOperators
open Idealize.ShloMosaic Idealize.ShloMosaic.TcCoe Idealize.SL.Sem Idealize.ShloMosaic.ValueIdx

namespace Cert.KernelIdeal.Lora

open Cert.KernelIdeal Cert.KernelIdeal.Gen Cert.LoraSpec

section AnyF
variable {F : FTy → Type} [FloatOps F]
variable (m : (ℓ : Loc nD τ sig) → Buf (Elt F) ℓ)

/-- The flattened activations, as the host computes them from the first argument. -/
abbrev xFlat (c : Dev nD) : FVec F S4096x4096 .f32 :=
  shapeCast S4096x4096 (m ((c : Thread nD τ).loc main_arg0)) shapeCasts_S8x512x4096_S4096x4096

/-- Window 0's array: the flattened activations, narrowed. -/
theorem V_v1 (c : Dev nD) : (V m c main_v1 : Vec F S4096x4096 .bf16) = truncf .bf16 (xFlat m c) bitsLt_bf16_f32 := by
  show StableHlo.after hostOps0 (fun b => m (c, b)) (Proc.devRef .tc main_v1) = _
  after_results
  rfl

/-- Window 1's array: the weight, narrowed. -/
theorem V_v2 (c : Dev nD) : (V m c main_v2 : Vec F S4096x4096 .bf16)
    = truncf .bf16 (m ((c : Thread nD τ).loc main_arg1) : FVec F S4096x4096 .f32) bitsLt_bf16_f32 := by
  show StableHlo.after hostOps0 (fun b => m (c, b)) (Proc.devRef .tc main_v2) = _
  after_results

/-- Window 3's array: the up-projection, narrowed. -/
theorem V_v5 (c : Dev nD) : (V m c main_v5 : Vec F S16x4096 .bf16)
    = truncf .bf16 (m ((c : Thread nD τ).loc main_arg4) : FVec F S16x4096 .f32) bitsLt_bf16_f32 := by
  show StableHlo.after hostOps0 (fun b => m (c, b)) (Proc.devRef .tc main_v5) = _
  after_results

/-- Window 2's array: the host's product of the narrowed activations with the narrowed transpose of `A`, narrowed. -/
theorem V_v7 (c : Dev nD) : (V m c main_v7 : Vec F S4096x16 .bf16) =
    truncf .bf16 (Host.dotGeneral dot_S4096x4096_S4096x16_S4096x16_1_0_0_1_n_n none
      (truncf .bf16 (xFlat m c) bitsLt_bf16_f32 : FVec F S4096x4096 .bf16)
      (truncf .bf16 (transpose S4096x16 [1, 0] (m ((c : Thread nD τ).loc main_arg3)) transposes_S16x4096_S4096x16_1_0)
        bitsLt_bf16_f32 : FVec F S4096x16 .bf16)) bitsLt_bf16_f32 := by
  show StableHlo.after hostOps0 (fun b => m (c, b)) (Proc.devRef .tc main_v7) = _
  after_results
  rfl

end AnyF

section AtIdeal
variable (m : (ℓ : Loc nD τ sig) → Buf (Elt Ideal) ℓ)

/-- The five matrices of the specification, read off the arguments. -/
abbrev X (c : Dev nD) : Mat 4096 4096 := mat (xFlat m c)
abbrev Wm (c : Dev nD) : Mat 4096 4096 := mat (m ((c : Thread nD τ).loc main_arg1) : FVec Ideal S4096x4096 .f32)
abbrev Am (c : Dev nD) : Mat 16 4096 := mat (m ((c : Thread nD τ).loc main_arg3) : FVec Ideal S16x4096 .f32)
abbrev Btm (c : Dev nD) : Mat 16 4096 := mat (m ((c : Thread nD τ).loc main_arg4) : FVec Ideal S16x4096 .f32)
abbrev bm (c : Dev nD) : Mat 1 4096 := mat (m ((c : Thread nD τ).loc main_arg2) : FVec Ideal S1x4096 .f32)

theorem plainHost : Cert.LibPlainDot.IsPlain (M := 4096) (K := 4096) (N := 16) dot_S4096x4096_S4096x16_S4096x16_1_0_0_1_n_n :=
  ⟨rfl, rfl, rfl, rfl, rfl, rfl⟩

theorem V_v1_apply (c : Dev nD) (r k : Fin 4096) : (V m c main_v1 : Vec Ideal S4096x4096 .bf16) (ix2 r k) = X m c r k := by
  rw [V_v1]; rfl

theorem V_v2_apply (c : Dev nD) (k n : Fin 4096) : (V m c main_v2 : Vec Ideal S4096x4096 .bf16) (ix2 k n) = Wm m c k n := by
  rw [V_v2]; rfl

theorem V_v5_apply (c : Dev nD) (j : Fin 16) (n : Fin 4096) : (V m c main_v5 : Vec Ideal S16x4096 .bf16) (ix2 j n) = Btm m c j n := by
  rw [V_v5]; rfl

theorem V_arg2_apply (c : Dev nD) (n : Fin 4096) : (V m c main_arg2 : Vec Ideal S1x4096 .f32) (ix2 (0 : Fin 1) n) = bm m c 0 n := by
  rw [V_main_arg2]; rfl

/-- The hoisted projection, entry by entry: row r of X against row j of `A` (the transpose read back). -/
theorem V_v7_apply (c : Dev nD) (r : Fin 4096) (j : Fin 16) :
    (V m c main_v7 : Vec Ideal S4096x16 .bf16) (ix2 r j) = proj (X m c) (Am m c) r j := by
  rw [V_v7]
  show FloatOps.dotGeneral (F := Ideal) dot_S4096x4096_S4096x16_S4096x16_1_0_0_1_n_n none .single _ _ (ix2 r j) = _
  rw [plainHost.dotGeneral_apply]
  unfold proj
  refine Finset.sum_congr rfl fun k _ => ?_
  show xFlat m c (ix2 r k) * transpose S4096x16 [1, 0] (m ((c : Thread nD τ).loc main_arg3)) transposes_S16x4096_S4096x16_1_0 (ix2 k j) = _
  rw [transpose_ix2_apply]
  rfl

end AtIdeal

end Cert.KernelIdeal.Lora

end
-- ==== Proof.KBlock.lean ====
/-
  One grid point's block of the kernel, entry by entry.

  The body stores, into the 1024 × 1024 output block, the full-K product of the activation block by the weight block
  (into a zero accumulator), plus the rank-16 product of the projection block by the up-projection block (into a
  zero accumulator), plus the bias block's one row broadcast over the rows. At entry (p, q) that is

      (Σₖ x0[p, k] · x1[k, q] + Σⱼ x2[p, j] · x3[j, q]) + x4[0, q].
-/
import proofs.«168310_g2000706549906588_pallasbulk_644_2_alg».proof.Proof.Gen.KernelIdeal.Skeleton
import proofs.«168310_g2000706549906588_pallasbulk_644_2_alg».proof.Proof.LibPlainDot
import Idealize.ShloMosaic.Lib.Pipeline.Value
import Idealize.ShloMosaic.Lib.ValueIdx
import Idealize.ShloMosaic.Lib.ValueLayout

noncomputable section

open scoped BigOperators
open Idealize.ShloMosaic Idealize.ShloMosaic.ValueIdx

namespace Cert.KernelIdeal.Lora

open Cert.KernelIdeal Cert.KernelIdeal.Gen

theorem plainFull : Cert.LibPlainDot.IsPlain (M := 1024) (K := 4096) (N := 1024) dot_S1024x4096_S4096x1024_S1024x1024_1_0_0_1_n_n :=
  ⟨rfl, rfl, rfl, rfl, rfl, rfl⟩

theorem plainRank : Cert.LibPlainDot.IsPlain (M := 1024) (K := 16) (N := 1024) dot_S1024x16_S16x1024_S1024x1024_1_0_0_1_n_n :=
  ⟨rfl, rfl, rfl, rfl, rfl, rfl⟩

/-- The body's stored value at entry (p, q) of the block. -/
theorem pay_apply (x0 : Vec Ideal S1024x4096 .bf16) (x1 : Vec Ideal S4096x1024 .bf16) (x2 : Vec Ideal S1024x16 .bf16)
    (x3 : Vec Ideal S16x1024 .bf16) (x4 : Vec Ideal S1x1024 .f32) (p q : Fin 1024) :
    k0_pay1 x0 x1 x2 x3 x4 (ix2 p q)
      = ((∑ k : Fin 4096, x0 (ix2 p k) * x1 (ix2 k q)) + ∑ j : Fin 16, x2 (ix2 p j) * x3 (ix2 j q)) + x4 (ix2 (0 : Fin 1) q) := by
  unfold k0_pay1
  simp only [shapeCast_self]
  show (FloatOps.matmul (F := Ideal) dot_S1024x4096_S4096x1024_S1024x1024_1_0_0_1_n_n none x0 x1 (constant S1024x1024 .f32 0x00000000#32) (ix2 p q)
      + FloatOps.matmul (F := Ideal) dot_S1024x16_S16x1024_S1024x1024_1_0_0_1_n_n none x2 x3 (constant S1024x1024 .f32 0x00000000#32) (ix2 p q))
      + broadcastTo S1024x1024 x4 broadcasts_S1x1024_S1024x1024 (ix2 p q) = _
  rw [plainFull.matmul_zero_apply, plainRank.matmul_zero_apply, broadcastTo_1b_ab_apply]

end Cert.KernelIdeal.Lora

end
-- ==== Proof.KFlush.lean ====
/-
  What the kernel's run leaves in its result: the LoRA linear map of the arguments.

  Grid point t = (i, j) of the 4 × 4 grid reads rows 1024·i … of X and of the projection P, columns 1024·j … of W, of
  Bt and of the bias, and writes block (i, j) of the 4096 × 4096 output. Entry (p, q) of that block is therefore entry
  (1024·i + p, 1024·j + q) of Y = X·W + P·Bt + b: every point writes back its block of the one matrix Y, the sixteen
  blocks tile the output, and the line after the region gives Y's rows their (8, 512) leading axes back.
-/
import proofs.«168310_g2000706549906588_pallasbulk_644_2_alg».proof.Proof.KHost
import proofs.«168310_g2000706549906588_pallasbulk_644_2_alg».proof.Proof.KBlock
import proofs.«168310_g2000706549906588_pallasbulk_644_2_alg».proof.Proof.Gen.KernelIdeal.Frame
import Idealize.ShloMosaic.Lib.Pipeline.Value
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Lora

open Cert.KernelIdeal Cert.KernelIdeal.Gen Cert.LoraSpec

variable (m : (ℓ : Loc nD τ sig) → Buf (Elt Ideal) ℓ) (ρ : Dev nD → PrngReg)

theorem hz : (![0, 0] : Fin 2 → Nat) = fun _ => 0 := funext fun a => by fin_cases a <;> rfl

/-- The matrix Y of the arguments, laid out as the region's output array. -/
def Y (c : Dev nD) : Buf (Elt Ideal) ((c : Thread nD τ).loc main_v8) :=
  arr (lin (X m c) (Wm m c) (proj (X m c) (Am m c)) (Btm m c) (bm m c))

/-- The index maps over the sixteen points: the row windows move with the output's block row, the column windows with
    its block column, and the full-K axes stay at block 0. -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = win0_5.index t (1 : Fin 2)
    ∧ win0_2.index t (0 : Fin 2) = win0_5.index t (0 : Fin 2) ∧ win0_2.index t (1 : Fin 2) = 0
    ∧ win0_3.index t (0 : Fin 2) = 0 ∧ win0_3.index t (1 : Fin 2) = win0_5.index t (1 : Fin 2)
    ∧ win0_4.index t (0 : Fin 2) = 0 ∧ win0_4.index t (1 : Fin 2) = win0_5.index t (1 : Fin 2) :=
  (by decide +kernel : ∀ t : Fin grid0.N, _)

theorem idx_le : ∀ t : Fin cfg0.N, win0_5.index t (0 : Fin 2) ≤ 3 ∧ win0_5.index t (1 : Fin 2) ≤ 3 :=
  (by decide +kernel : ∀ t : Fin grid0.N, _)

/-- Every block position of the 4 × 4 tiling is some point's. -/
theorem idx_onto : ∀ (q0 q1 : Fin 4), ∃ t : Fin cfg0.N, win0_5.index t = ![q0.val, q1.val] :=
  (by decide +kernel : ∀ (q0 q1 : Fin 4), ∃ t : Fin grid0.N, win0_5.index t = ![q0.val, q1.val])

/-- Row p of point t's block is this row of the whole matrix, -/
def row (t : Fin cfg0.N) (p : Fin 1024) : Fin 4096 :=
  ⟨win0_5.index t (0 : Fin 2) * 1024 + p.val, by have := (idx_le t).1; have := p.isLt; omega⟩
/-- and column q this column. -/
def col (t : Fin cfg0.N) (q : Fin 1024) : Fin 4096 :=
  ⟨win0_5.index t (1 : Fin 2) * 1024 + q.val, by have := (idx_le t).2; have := q.isLt; omega⟩

/-- The activation block at a point: rows of X from the point's block row on, every column. -/
theorem blk0_apply (c : Dev nD) (t : Fin cfg0.N) (p : Fin 1024) (k : Fin 4096) :
    (iblk m c 0 t : Vec Ideal S1024x4096 .bf16) (ix2 p k) = X m c (row t p) k := by
  show (V m c main_v1 : Vec Ideal S4096x4096 .bf16) (((cfg0.win 0).blk t).view.emb (ix2 p k)) = _
  have h : ((cfg0.win 0).blk t).view.emb (ix2 p k) = ix2 (row t p) k := by
    funext a; apply Fin.ext
    obtain ⟨e0, e1, -⟩ := idx_facts t
    match a with
    | ⟨0, _⟩ => show win0_0.index t (0 : Fin 2) * 1024 + 1 * p.val = win0_5.index t (0 : Fin 2) * 1024 + p.val; omega
    | ⟨1, _⟩ => show win0_0.index t (1 : Fin 2) * 4096 + 1 * k.val = k.val; omega
  rw [h]
  exact V_v1_apply m c (row t p) k

/-- The weight block: every row of W, columns from the point's block column on. -/
theorem blk1_apply (c : Dev nD) (t : Fin cfg0.N) (k : Fin 4096) (q : Fin 1024) :
    (iblk m c 1 t : Vec Ideal S4096x1024 .bf16) (ix2 k q) = Wm m c k (col t q) := by
  show (V m c main_v2 : Vec Ideal S4096x4096 .bf16) (((cfg0.win 1).blk t).view.emb (ix2 k q)) = _
  have h : ((cfg0.win 1).blk t).view.emb (ix2 k q) = ix2 k (col t q) := by
    funext a; apply Fin.ext
    obtain ⟨-, -, e2, e3, -⟩ := idx_facts t
    match a with
    | ⟨0, _⟩ => show win0_1.index t (0 : Fin 2) * 4096 + 1 * k.val = k.val; omega
    | ⟨1, _⟩ => show win0_1.index t (1 : Fin 2) * 1024 + 1 * q.val = win0_5.index t (1 : Fin 2) * 1024 + q.val; omega
  rw [h]
  exact V_v2_apply m c k (col t q)

/-- The projection block: rows of P from the point's block row on. -/
theorem blk2_apply (c : Dev nD) (t : Fin cfg0.N) (p : Fin 1024) (j : Fin 16) :
    (iblk m c 2 t : Vec Ideal S1024x16 .bf16) (ix2 p j) = proj (X m c) (Am m c) (row t p) j := by
  show (V m c main_v7 : Vec Ideal S4096x16 .bf16) (((cfg0.win 2).blk t).view.emb (ix2 p j)) = _
  have h : ((cfg0.win 2).blk t).view.emb (ix2 p j) = ix2 (row t p) j := by
    funext a; apply Fin.ext
    obtain ⟨-, -, -, -, e4, e5, -⟩ := idx_facts t
    match a with
    | ⟨0, _⟩ => show win0_2.index t (0 : Fin 2) * 1024 + 1 * p.val = win0_5.index t (0 : Fin 2) * 1024 + p.val; omega
    | ⟨1, _⟩ => show win0_2.index t (1 : Fin 2) * 16 + 1 * j.val = j.val; omega
  rw [h]
  exact V_v7_apply m c (row t p) j

/-- The up-projection block: columns of Bt from the point's block column on. -/
theorem blk3_apply (c : Dev nD) (t : Fin cfg0.N) (j : Fin 16) (q : Fin 1024) :
    (iblk m c 3 t : Vec Ideal S16x1024 .bf16) (ix2 j q) = Btm m c j (col t q) := by
  show (V m c main_v5 : Vec Ideal S16x4096 .bf16) (((cfg0.win 3).blk t).view.emb (ix2 j q)) = _
  have h : ((cfg0.win 3).blk t).view.emb (ix2 j q) = ix2 j (col t q) := by
    funext a; apply Fin.ext
    obtain ⟨-, -, -, -, -, -, e6, e7, -⟩ := idx_facts t
    match a with
    | ⟨0, _⟩ => show win0_3.index t (0 : Fin 2) * 16 + 1 * j.val = j.val; omega
    | ⟨1, _⟩ => show win0_3.index t (1 : Fin 2) * 1024 + 1 * q.val = win0_5.index t (1 : Fin 2) * 1024 + q.val; omega
  rw [h]
  exact V_v5_apply m c j (col t q)

/-- The bias block: the bias row from the point's block column on. -/
theorem blk4_apply (c : Dev nD) (t : Fin cfg0.N) (q : Fin 1024) :
    (iblk m c 4 t : Vec Ideal S1x1024 .f32) (ix2 (0 : Fin 1) q) = bm m c 0 (col t q) := by
  show (V m c main_arg2 : Vec Ideal S1x4096 .f32) (((cfg0.win 4).blk t).view.emb (ix2 (0 : Fin 1) q)) = _
  have h : ((cfg0.win 4).blk t).view.emb (ix2 (0 : Fin 1) q) = ix2 (0 : Fin 1) (col t q) := by
    funext a; apply Fin.ext
    obtain ⟨-, -, -, -, -, -, -, -, e8, e9⟩ := idx_facts t
    match a with
    | ⟨0, _⟩ => show win0_4.index t (0 : Fin 2) * 1 + 1 * 0 = 0; omega
    | ⟨1, _⟩ => show win0_4.index t (1 : Fin 2) * 1024 + 1 * q.val = win0_5.index t (1 : Fin 2) * 1024 + q.val; omega
  rw [h]
  exact V_arg2_apply m c (col t q)

/-- What point t writes back is its block of Y. -/
theorem flushed_eq (c : Dev nD) (t : Fin cfg0.N) :
    (dats m 0 c).flushed 5 t = ((cfg0.win 5).blk t).view.read (Elt Ideal) (Y m c) := by
  show (cfg0.win 5).cut (grid0.coords t) ((dats m 0 c).after 5 t) = _
  rw [after0_5]
  unfold out0_5
  rw [View.canon_unit_zero hz]
  simp only [View.ld_unit_zero (S := S1024x4096) hz, View.ld_unit_zero (S := S4096x1024) hz, View.ld_unit_zero (S := S1024x16) hz,
    View.ld_unit_zero (S := S16x1024) hz, View.ld_unit_zero (S := S1x1024) hz]
  funext j
  obtain ⟨p, q, rfl⟩ : ∃ (p q : Fin 1024), j = ix2 p q := ⟨j 0, j 1, eq_ix2 j⟩
  refine (pay_apply (iblk m c 0 t) (iblk m c 1 t) (iblk m c 2 t) (iblk m c 3 t) (iblk m c 4 t) p q).trans ?_
  have hY : ((cfg0.win 5).blk t).view.read (Elt Ideal) (Y m c) (ix2 p q) = Y m c (ix2 (row t p) (col t q)) := by
    show Y m c (((cfg0.win 5).blk t).view.emb (ix2 p q)) = _
    refine congrArg (Y m c) (funext fun a => Fin.ext ?_)
    match a with
    | ⟨0, _⟩ => show win0_5.index t (0 : Fin 2) * 1024 + 1 * p.val = win0_5.index t (0 : Fin 2) * 1024 + p.val; omega
    | ⟨1, _⟩ => show win0_5.index t (1 : Fin 2) * 1024 + 1 * q.val = win0_5.index t (1 : Fin 2) * 1024 + q.val; omega
  rw [hY]
  show _ = lin (X m c) (Wm m c) (proj (X m c) (Am m c)) (Btm m c) (bm m c) (row t p) (col t q)
  unfold lin
  simp only [blk0_apply, blk1_apply, blk2_apply, blk3_apply, blk4_apply]

/-- An index of the output is in point t's block iff each coordinate is in the block's range. -/
theorem mem_blk (t : Fin cfg0.N) (i : S4096x4096.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v8).slice (win0_5.rect t)).set ↔ _
  rw [View.set_slice_whole, Rect.mem_set_unit]
  exact Iff.rfl

/-- The sixteen blocks cover the output. -/
theorem cover (i : S4096x4096.Idx) : ∃ t : Fin cfg0.N, (cfg0.win 5).flush t = true ∧ i ∈ ((cfg0.win 5).blk t).view.set := by
  have hi0 : (i 0).val < 4096 := (i 0).isLt
  have hi1 : (i 1).val < 4096 := (i 1).isLt
  obtain ⟨t, ht⟩ := idx_onto ⟨(i 0).val / 1024, by omega⟩ ⟨(i 1).val / 1024, by omega⟩
  have q0 : win0_5.index t (0 : Fin 2) = (i 0).val / 1024 := congrFun ht 0
  have q1 : win0_5.index t (1 : Fin 2) = (i 1).val / 1024 := congrFun ht 1
  refine ⟨t, flush0_5 t, ?_⟩
  rw [mem_blk]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1024 ≤ (i 1).val ∧ (i 1).val < win0_5.index t (1 : Fin 2) * 1024 + 1024; omega

/-- So the region's output array ends holding Y. -/
theorem final (c : Dev nD) : (dats m 0 c).arrAt 5 cfg0.N = Y m c :=
  (dats m 0 c).arrAt_eq_of_cover 5 (Y m c) (fun t _ => flushed_eq m c t) (cover)

end Cert.KernelIdeal.Lora

end
-- ==== Proof.KRun.lean ====
/-
  The kernel's run, read: its result array ends holding the LoRA linear map of the arguments, rows regrouped to
  (8, 512), and the five argument arrays end unchanged.
-/
import proofs.«168310_g2000706549906588_pallasbulk_644_2_alg».proof.Proof.KFlush

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Lora

open Cert.KernelIdeal Cert.KernelIdeal.Gen Cert.LoraSpec

variable (m : (ℓ : Loc nD τ sig) → Buf (Elt Ideal) ℓ) (ρ : Dev nD → PrngReg)

/-- The line after the region regroups the rows of the region's output: the program's result is Y reshaped. -/
theorem tail_eq (c : Dev nD) :
    Pipeline.afterTail₀ cfgs (dats m) 0 (V0 m) [hostOps1] c main_v9
      = shapeCast S8x512x4096 (Y m c) shapeCasts_S4096x4096_S8x512x4096 := by
  unfold Pipeline.afterTail₀
  show StableHlo.after hostOps1 _ (Proc.devRef .tc main_v9) = _
  after_results
  have e : Pipeline.withArrays (cfgs 0).spec c (V0 m c) (fun w => (dats m 0 c).arrAt w (cfgs 0).N) (Proc.tc.devRef main_v8) = Y m c :=
    (Pipeline.withArrays_arr spec0 launch0.win.arr_inj c _ _ 5).trans (final m c)
  rw [e]
  rfl

/-- The whole function of the arguments the program's result holds. -/
abbrev res (c : Dev nD) : FVec Ideal S8x512x4096 .f32 :=
  result (m ((c : Thread nD τ).loc main_arg0)) (m ((c : Thread nD τ).loc main_arg1)) (m ((c : Thread nD τ).loc main_arg2))
    (m ((c : Thread nD τ).loc main_arg3)) (m ((c : Thread nD τ).loc main_arg4))
    shapeCasts_S8x512x4096_S4096x4096 shapeCasts_S4096x4096_S8x512x4096

theorem res_eq (c : Dev nD) : shapeCast S8x512x4096 (Y m c) shapeCasts_S4096x4096_S8x512x4096 = res m c := rfl

/-- Every weakly fair execution of the program terminates with the result at the LoRA map of the arguments and the
    arguments unchanged. -/
theorem run : θ_run defs (onTc (τ := τ) (main (F := Ideal))) ⟨m, fun _ => 0, ρ⟩ fun r => ∀ c : Dev nD,
      r.2.mem ((c.tc : Thread nD τ).loc main_v9) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v9 (Pipeline.mem_restRefs_of main_v9 (by decide) (by decide))).trans ((tail_eq m c).trans (res_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 4).trans (((dats m 0 c).arrAt_in 4 rfl _).trans ((A_eq m c 4).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Lora

end
-- ==== Proof.RHost.lean ====
/-
  The arrays the reference's one region finds when it is entered, as functions of the five arguments.

  Before the region the program flattens the activations to 4096 rows, pads them by zero rows and columns (a pad of
  width zero is the identity), transposes `A`, forms the hoisted projection `x · Aᵀ` with one host product and pads
  it by zero rows. So, entry by entry, the region's windows stage: the projection P, X itself, and the arguments W, Bt
  and the bias row as launched.
-/
import proofs.«168310_g2000706549906588_pallasbulk_644_2_alg».proof.Proof.Gen.ReferenceIdeal.Frame
import proofs.«168310_g2000706549906588_pallasbulk_644_2_alg».proof.Proof.LoraSpec
import proofs.«168310_g2000706549906588_pallasbulk_644_2_alg».proof.Proof.LibPlainDot
import Idealize.ShloMosaic.Lib.StableHlo.Run
import Idealize.ShloMosaic.Lib.ValueIdx
import Idealize.ShloMosaic.Lib.ValueLayout
import Idealize.ShloMosaic.Lib.KernelVsHost

noncomputable section

open scoped BigOperators
open Idealize.ShloMosaic Idealize.ShloMosaic.TcCoe Idealize.SL.Sem Idealize.ShloMosaic.ValueIdx

namespace Cert.ReferenceIdeal.Lora

open Cert.ReferenceIdeal Cert.ReferenceIdeal.Gen Cert.LoraSpec

section AnyF
variable {F : FTy → Type} [FloatOps F]
variable (m : (ℓ : Loc nD τ sig) → Buf (Elt F) ℓ)

/-- The flattened activations, as the host computes them from the first argument. -/
abbrev xFlat (c : Dev nD) : FVec F S4096x4096 .f32 :=
  shapeCast S4096x4096 (m ((c : Thread nD τ).loc main_arg0)) shapeCasts_S8x512x4096_S4096x4096

/-- Window 1's array: the flattened activations padded by zero rows and columns with the scalar zero. -/
theorem V_v1 (c : Dev nD) : (V m c main_v1 : Vec F S4096x4096 .f32)
    = pad S4096x4096 ![0, 0] ![0, 0] ![0, 0] (xFlat m c) (sitofp .f32 (constantI S_ 32 0#32) : FVec F S_ .f32) pads_S4096x4096_S4096x4096_000_000 h_S_ := by
  dsimp only [Gen.V, Gen.V0]
  simp only [Gen.hostOps0, Gen.hostOps0_1, Gen.hostOps0_2, Gen.hostOps0_3, List.flatten_cons, List.flatten_nil, List.append_nil, List.cons_append, List.nil_append]
  after_results
  rfl

/-- Window 0's array: the host's product of the flattened activations with the transpose of `A`, padded by zero rows
    and columns with the scalar zero. -/
theorem V_v4 (c : Dev nD) : (V m c main_v4 : Vec F S4096x16 .f32)
    = pad S4096x16 ![0, 0] ![0, 0] ![0, 0]
        (Host.dotGeneral dot_S4096x4096_S4096x16_S4096x16_1_0_0_1_n_n none (xFlat m c)
          (transpose S4096x16 [1, 0] (m ((c : Thread nD τ).loc main_arg3)) transposes_S16x4096_S4096x16_1_0 : FVec F S4096x16 .f32) : FVec F S4096x16 .f32)
        (sitofp .f32 (constantI S_ 32 0#32) : FVec F S_ .f32) pads_S4096x16_S4096x16_000_000 h_S_ := by
  dsimp only [Gen.V, Gen.V0]
  simp only [Gen.hostOps0, Gen.hostOps0_1, Gen.hostOps0_2, Gen.hostOps0_3, List.flatten_cons, List.flatten_nil, List.append_nil, List.cons_append, List.nil_append]
  after_results
  rfl

end AnyF

section PadZero
variable {α : Type}

/-- A pad of width zero on every side and between entries, read at an index, is the operand there. -/
theorem pad_zero_ix2 {a b : Nat} (x : (⟨2, ![a, b]⟩ : Shape).Idx → α) {u : Shape} (v : u.Idx → α)
    (h : (⟨2, ![a, b]⟩ : Shape).Pads ![0, 0] ![0, 0] ![0, 0] ⟨2, ![a, b]⟩) (hu : 0 < u.numel) (r : Fin a) (k : Fin b) :
    pad ⟨2, ![a, b]⟩ ![0, 0] ![0, 0] ![0, 0] x v h hu (ix2 r k) = x (ix2 r k) := by
  refine pad_apply_of_inside _ _ _ x v h hu (ix2 r k) (ix2 r k) fun i => ?_
  match i with
  | ⟨0, _⟩ => show r.val = 0 + r.val * (0 + 1); omega
  | ⟨1, _⟩ => show k.val = 0 + k.val * (0 + 1); omega

end PadZero

section AtIdeal
variable (m : (ℓ : Loc nD τ sig) → Buf (Elt Ideal) ℓ)

/-- The five matrices of the specification, read off the arguments. -/
abbrev X (c : Dev nD) : Mat 4096 4096 := mat (xFlat m c)
abbrev Wm (c : Dev nD) : Mat 4096 4096 := mat (m ((c : Thread nD τ).loc main_arg1) : FVec Ideal S4096x4096 .f32)
abbrev Am (c : Dev nD) : Mat 16 4096 := mat (m ((c : Thread nD τ).loc main_arg3) : FVec Ideal S16x4096 .f32)
abbrev Btm (c : Dev nD) : Mat 16 4096 := mat (m ((c : Thread nD τ).loc main_arg4) : FVec Ideal S16x4096 .f32)
abbrev bm (c : Dev nD) : Mat 1 4096 := mat (m ((c : Thread nD τ).loc main_arg2) : FVec Ideal S1x4096 .f32)

/-- The host product's dimension numbers are the plain matrix product's. -/
theorem plainHost : Cert.LibPlainDot.IsPlain (M := 4096) (K := 4096) (N := 16) dot_S4096x4096_S4096x16_S4096x16_1_0_0_1_n_n :=
  ⟨rfl, rfl, rfl, rfl, rfl, rfl⟩

/-- Window 1's array (the padded activations), entry by entry. -/
theorem V_v1_apply (c : Dev nD) (r k : Fin 4096) : (V m c main_v1 : Vec Ideal S4096x4096 .f32) (ix2 r k) = X m c r k := by
  rw [V_v1]
  exact pad_zero_ix2 (a := 4096) (b := 4096) (xFlat m c) _ _ _ r k

/-- Window 0's array (the padded projection), entry by entry: row r of X against row j of `A`. -/
theorem V_v4_apply (c : Dev nD) (r : Fin 4096) (j : Fin 16) :
    (V m c main_v4 : Vec Ideal S4096x16 .f32) (ix2 r j) = proj (X m c) (Am m c) r j := by
  rw [V_v4]
  refine (pad_zero_ix2 (a := 4096) (b := 16) _ _ _ _ r j).trans ?_
  show FloatOps.dotGeneral (F := Ideal) dot_S4096x4096_S4096x16_S4096x16_1_0_0_1_n_n none .single _ _ (ix2 r j) = _
  rw [plainHost.dotGeneral_apply]
  unfold proj
  refine Finset.sum_congr rfl fun k _ => ?_
  show xFlat m c (ix2 r k) * transpose S4096x16 [1, 0] (m ((c : Thread nD τ).loc main_arg3)) transposes_S16x4096_S4096x16_1_0 (ix2 k j) = _
  rw [transpose_ix2_apply]
  rfl

/-- Window 2's array is the weight as launched. -/
theorem V_arg1_apply (c : Dev nD) (k n : Fin 4096) : (V m c main_arg1 : Vec Ideal S4096x4096 .f32) (ix2 k n) = Wm m c k n := by
  rw [V_main_arg1]; rfl

/-- Window 3's array is the up-projection as launched. -/
theorem V_arg4_apply (c : Dev nD) (j : Fin 16) (n : Fin 4096) : (V m c main_arg4 : Vec Ideal S16x4096 .f32) (ix2 j n) = Btm m c j n := by
  rw [V_main_arg4]; rfl

/-- Window 4's array is the bias row as launched. -/
theorem V_arg2_apply (c : Dev nD) (n : Fin 4096) : (V m c main_arg2 : Vec Ideal S1x4096 .f32) (ix2 (0 : Fin 1) n) = bm m c 0 n := by
  rw [V_main_arg2]; rfl

end AtIdeal

end Cert.ReferenceIdeal.Lora

end
-- ==== Proof.RBlock.lean ====
/-
  The reference kernel's three stored values, entry by entry.

  At every grid point the body adds, into the carried 512 × 512 accumulator, the product of a 512 × 1024 block of the
  activations by a 1024 × 512 block of the weight (the matrix unit's product into a zero accumulator, then one
  addition). At the first point of a K run the accumulator is first set to zero; at the last the epilogue adds the
  rank-16 product of the projection block by the up-projection block and then the bias block's one row.
-/
import proofs.«168310_g2000706549906588_pallasbulk_644_2_alg».proof.Proof.Gen.ReferenceIdeal.Skeleton
import proofs.«168310_g2000706549906588_pallasbulk_644_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.ReferenceIdeal.Lora

open Cert.ReferenceIdeal Cert.ReferenceIdeal.Gen

theorem plainStep : Cert.LibPlainDot.IsPlain (M := 512) (K := 1024) (N := 512) dot_S512x1024_S1024x512_S512x512_1_0_0_1_n_n :=
  ⟨rfl, rfl, rfl, rfl, rfl, rfl⟩

theorem plainRank : Cert.LibPlainDot.IsPlain (M := 512) (K := 16) (N := 512) dot_S512x16_S16x512_S512x512_1_0_0_1_n_n :=
  ⟨rfl, rfl, rfl, rfl, rfl, rfl⟩

/-- The reset stores zero everywhere. -/
theorem pay1_apply (p q : Fin 512) : k0_pay1 (F := Ideal) (ix2 p q) = 0 := by
  unfold k0_pay1
  simp only [shapeCast_self]
  show Ideal.ofBits .f32 0x00000000#32 = 0
  exact Ideal.ofBits_zero_f32

/-- One accumulation step at entry (p, q): the accumulator there plus the block product's entry. -/
theorem pay2_apply (acc : Vec Ideal S512x512 .f32) (x1 : Vec Ideal S512x1024 .f32) (x2 : Vec Ideal S1024x512 .f32) (p q : Fin 512) :
    k0_pay2 acc x1 x2 (ix2 p q) = acc (ix2 p q) + ∑ k : Fin 1024, x1 (ix2 p k) * x2 (ix2 k q) := by
  unfold k0_pay2
  simp only [shapeCast_self]
  show acc (ix2 p q) + FloatOps.matmul (F := Ideal) dot_S512x1024_S1024x512_S512x512_1_0_0_1_n_n none x1 x2 (constant S512x512 .f32 0x00000000#32) (ix2 p q) = _
  rw [plainStep.matmul_zero_apply]

/-- The epilogue at entry (p, q): the accumulator there, plus the rank-16 product's entry, plus the bias at column q. -/
theorem pay3_apply (x0 : Vec Ideal S512x16 .f32) (x3 : Vec Ideal S16x512 .f32) (acc : Vec Ideal S512x512 .f32) (x4 : Vec Ideal S1x512 .f32)
    (p q : Fin 512) :
    k0_pay3 x0 x3 acc x4 (ix2 p q) = (acc (ix2 p q) + ∑ j : Fin 16, x0 (ix2 p j) * x3 (ix2 j q)) + x4 (ix2 (0 : Fin 1) q) := by
  unfold k0_pay3
  simp only [shapeCast_self]
  show (acc (ix2 p q) + FloatOps.matmul (F := Ideal) dot_S512x16_S16x512_S512x512_1_0_0_1_n_n none x0 x3 (constant S512x512 .f32 0x00000000#32) (ix2 p q))
      + broadcastTo S512x512 x4 broadcasts_S1x512_S512x512 (ix2 p q) = _
  rw [plainRank.matmul_zero_apply, broadcastTo_1b_ab_apply]

/-- A whole K run at entry (p, q): zero, the four block products added first to last, the rank-16 product, the bias. -/
theorem run_apply (x0 : Vec Ideal S512x16 .f32) (x3 : Vec Ideal S16x512 .f32) (x4 : Vec Ideal S1x512 .f32)
    (u0 : Vec Ideal S512x1024 .f32) (v0 : Vec Ideal S1024x512 .f32) (u1 : Vec Ideal S512x1024 .f32) (v1 : Vec Ideal S1024x512 .f32)
    (u2 : Vec Ideal S512x1024 .f32) (v2 : Vec Ideal S1024x512 .f32) (u3 : Vec Ideal S512x1024 .f32) (v3 : Vec Ideal S1024x512 .f32)
    (p q : Fin 512) :
    k0_pay3 x0 x3 (k0_pay2 (k0_pay2 (k0_pay2 (k0_pay2 (k0_pay1 (F := Ideal)) u0 v0) u1 v1) u2 v2) u3 v3) x4 (ix2 p q)
      = ((((((0 : EReal) + ∑ k : Fin 1024, u0 (ix2 p k) * v0 (ix2 k q)) + ∑ k : Fin 1024, u1 (ix2 p k) * v1 (ix2 k q))
            + ∑ k : Fin 1024, u2 (ix2 p k) * v2 (ix2 k q)) + ∑ k : Fin 1024, u3 (ix2 p k) * v3 (ix2 k q))
          + ∑ j : Fin 16, x0 (ix2 p j) * x3 (ix2 j q)) + x4 (ix2 (0 : Fin 1) q) := by
  rw [pay3_apply, pay2_apply, pay2_apply, pay2_apply, pay2_apply, pay1_apply]

end Cert.ReferenceIdeal.Lora

end
-- ==== Proof.RChain.lean ====
/-
  The reference kernel's carried accumulator along one K run, and what the epilogue writes from it.

  The 256 grid points come in runs of four along the K axis. At a run's first point the body stores zero into the
  carried 512 × 512 accumulator and adds that point's block product; at the two middle points it adds theirs to what
  the point before left; at the last point it adds its own and then stores, into the output's staging buffer, the
  accumulator so updated plus the rank-16 product plus the bias row. So after the last point of a run the output block
  is the epilogue's value over four nested accumulation steps that start from zero.
-/
import proofs.«168310_g2000706549906588_pallasbulk_644_2_alg».proof.Proof.Gen.ReferenceIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)
open Idealize.ShloMosaic.Tactic

namespace Cert.ReferenceIdeal.Lora

open Cert.ReferenceIdeal Cert.ReferenceIdeal.Gen

variable {F : FTy → Type} [FloatOps F]
variable (m : (ℓ : Loc nD τ sig) → Buf (Elt F) ℓ)

/-- The grid point κ steps before t (κ ≤ 3 is used, at points whose position along the K axis is 3). -/
def back (t : Fin cfg0.N) (κ : Nat) : Fin cfg0.N := ⟨t.val - κ, lt_of_le_of_lt (Nat.sub_le _ _) t.isLt⟩

theorem back_val (t : Fin cfg0.N) (κ : Nat) : (back t κ).val = t.val - κ := rfl

/-- The zero offsets of a whole-buffer rectangle, as the constant function. -/
theorem hz_chain : (![0, 0] : Fin 2 → Nat) = fun _ => 0 := funext fun a => by fin_cases a <;> rfl

/-- After a step of the middle of a run the accumulator is the old one plus the step's block product. -/
theorem piece_B (c : Dev nD) (i : grid0.Coords) (arg3 : Memref sig .tc .vmem S512x16 .f32) (harg3 : arg3.IsWhole) (arg4 : Memref sig .tc .vmem S512x1024 .f32) (harg4 : arg4.IsWhole) (arg5 : Memref sig .tc .vmem S1024x512 .f32) (harg5 : arg5.IsWhole) (arg6 : Memref sig .tc .vmem S16x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : ¬cond0_1 i)
    (x0 : Vec F S512x16 .f32) (x1 : Vec F S512x1024 .f32) (x2 : Vec F S1024x512 .f32) (x3 : Vec F S16x512 .f32) (x4 : Vec F S1x512 .f32) (xs0 : Vec F S512x512 .f32) :
    sout0_B_0 c i arg3 harg3 arg4 harg4 arg5 harg5 arg6 harg6 arg7 harg7 arg8 harg8 arg9 harg9 hc0 hc1 x0 x1 x2 x3 x4 xs0 = k0_pay2 xs0 x1 x2 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero hz_chain]
  simp only [View.readAt_eq_ld, harg3.read_unread, harg4.read_unread, harg5.read_unread, harg6.read_unread, harg7.read_unread, harg9.read_unread, View.ld_unit_zero (S := S512x512) hz_chain, View.ld_unit_zero (S := S512x1024) hz_chain, View.ld_unit_zero (S := S1024x512) hz_chain, View.ld_unit_zero (S := S512x16) hz_chain, View.ld_unit_zero (S := S16x512) hz_chain, View.ld_unit_zero (S := S1x512) hz_chain, View.readCov_unit_zero (S := S512x512) _ hz_chain]

/-- After the first step of a run the accumulator is zero plus the step's block product: the zero stored first
    is what the accumulate reads back. -/
theorem piece_A (c : Dev nD) (i : grid0.Coords) (arg3 : Memref sig .tc .vmem S512x16 .f32) (harg3 : arg3.IsWhole) (arg4 : Memref sig .tc .vmem S512x1024 .f32) (harg4 : arg4.IsWhole) (arg5 : Memref sig .tc .vmem S1024x512 .f32) (harg5 : arg5.IsWhole) (arg6 : Memref sig .tc .vmem S16x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S512x512 .f32) (harg9 : arg9.IsWhole) (hc0 : cond0_0 i) (hc1 : ¬cond0_1 i)
    (x0 : Vec F S512x16 .f32) (x1 : Vec F S512x1024 .f32) (x2 : Vec F S1024x512 .f32) (x3 : Vec F S16x512 .f32) (x4 : Vec F S1x512 .f32) :
    sout0_A_0 c i arg3 harg3 arg4 harg4 arg5 harg5 arg6 harg6 arg7 harg7 arg8 harg8 arg9 harg9 hc0 hc1 x0 x1 x2 x3 x4 = k0_pay2 (k0_pay1 (F := F)) x1 x2 := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S512x512) hz_chain, View.readCov_unit_zero (S := S512x512) _ hz_chain]
  simp only [View.readAt_eq_ld, harg3.read_unread, harg4.read_unread, harg5.read_unread, harg6.read_unread, harg7.read_unread, harg9.read_unread, View.ld_unit_zero (S := S512x512) hz_chain, View.ld_unit_zero (S := S512x1024) hz_chain, View.ld_unit_zero (S := S1024x512) hz_chain, View.ld_unit_zero (S := S512x16) hz_chain, View.ld_unit_zero (S := S16x512) hz_chain, View.ld_unit_zero (S := S1x512) hz_chain, View.readCov_unit_zero (S := S512x512) _ hz_chain]

/-- After the last step of a run the accumulator is the old one plus the step's block product. -/
theorem piece_C_scr (c : Dev nD) (i : grid0.Coords) (arg3 : Memref sig .tc .vmem S512x16 .f32) (harg3 : arg3.IsWhole) (arg4 : Memref sig .tc .vmem S512x1024 .f32) (harg4 : arg4.IsWhole) (arg5 : Memref sig .tc .vmem S1024x512 .f32) (harg5 : arg5.IsWhole) (arg6 : Memref sig .tc .vmem S16x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : cond0_1 i)
    (x0 : Vec F S512x16 .f32) (x1 : Vec F S512x1024 .f32) (x2 : Vec F S1024x512 .f32) (x3 : Vec F S16x512 .f32) (x4 : Vec F S1x512 .f32) (xs0 : Vec F S512x512 .f32) :
    sout0_C_0 c i arg3 harg3 arg4 harg4 arg5 harg5 arg6 harg6 arg7 harg7 arg8 harg8 arg9 harg9 hc0 hc1 x0 x1 x2 x3 x4 xs0 = k0_pay2 xs0 x1 x2 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz_chain]
  simp only [View.readAt_eq_ld, harg3.read_unread, harg4.read_unread, harg5.read_unread, harg6.read_unread, harg7.read_unread, harg9.read_unread, View.ld_unit_zero (S := S512x512) hz_chain, View.ld_unit_zero (S := S512x1024) hz_chain, View.ld_unit_zero (S := S1024x512) hz_chain, View.ld_unit_zero (S := S512x16) hz_chain, View.ld_unit_zero (S := S16x512) hz_chain, View.ld_unit_zero (S := S1x512) hz_chain, View.readCov_unit_zero (S := S512x512) _ hz_chain]

/-- At the last step of a run the output is the epilogue over the accumulator AFTER that step's update. -/
theorem piece_C_out (c : Dev nD) (i : grid0.Coords) (arg3 : Memref sig .tc .vmem S512x16 .f32) (harg3 : arg3.IsWhole) (arg4 : Memref sig .tc .vmem S512x1024 .f32) (harg4 : arg4.IsWhole) (arg5 : Memref sig .tc .vmem S1024x512 .f32) (harg5 : arg5.IsWhole) (arg6 : Memref sig .tc .vmem S16x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : cond0_1 i)
    (x0 : Vec F S512x16 .f32) (x1 : Vec F S512x1024 .f32) (x2 : Vec F S1024x512 .f32) (x3 : Vec F S16x512 .f32) (x4 : Vec F S1x512 .f32) (xs0 : Vec F S512x512 .f32) :
    out0_C_5 c i arg3 harg3 arg4 harg4 arg5 harg5 arg6 harg6 arg7 harg7 arg8 harg8 arg9 harg9 hc0 hc1 x0 x1 x2 x3 x4 xs0 = k0_pay3 x0 x3 (k0_pay2 xs0 x1 x2) x4 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz_chain]
  simp only [View.readAt_eq_ld, harg3.read_unread, harg4.read_unread, harg5.read_unread, harg6.read_unread, harg7.read_unread, harg9.read_unread, View.ld_unit_zero (S := S512x512) hz_chain, View.ld_unit_zero (S := S512x1024) hz_chain, View.ld_unit_zero (S := S1024x512) hz_chain, View.ld_unit_zero (S := S512x16) hz_chain, View.ld_unit_zero (S := S16x512) hz_chain, View.ld_unit_zero (S := S1x512) hz_chain, View.readCov_unit_zero (S := S512x512) _ hz_chain]

/-- The run's contents at a position do not depend on how the position is written. -/
theorem outsAt0_congr (c : Dev nD) (n n' : ℕ) (h : n < cfg0.N) (h' : n' < cfg0.N) (e : n = n') :
    outsAt0 m c n h = outsAt0 m c n' h' := by
  subst e; rfl

/-- The accumulator after the first step of a K run. -/
theorem scr_A (c : Dev nD) (t : Fin cfg0.N) (h0 : t.val % 4 = 0) (h1 : ¬t.val % 4 = 3) :
    (outsAt0 m c t.val t.isLt).2 = k0_pay2 (k0_pay1 (F := F)) (iblk m c 1 t) (iblk m c 2 t) := by
  rw [outsAt0_A m c t h0 h1]
  dsimp only
  exact piece_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)

/-- The accumulator after a middle step of a K run, over the accumulator the step before left (at position s). -/
theorem scr_B (c : Dev nD) (t s : Fin cfg0.N) (h0 : ¬t.val % 4 = 0) (h1 : ¬t.val % 4 = 3) (hs : s.val = t.val - 1) :
    (outsAt0 m c t.val t.isLt).2 = k0_pay2 (outsAt0 m c s.val s.isLt).2 (iblk m c 1 t) (iblk m c 2 t) := by
  rw [outsAt0_B m c t h0 h1]
  dsimp only
  rw [outsAt0_congr m c (t.val - 1) s.val (Nat.lt_of_le_of_lt (Nat.sub_le _ _) t.isLt) s.isLt hs.symm]
  exact piece_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c s.val s.isLt).2

/-- The output after the last step of a K run, over the accumulator the step before left (at position s). -/
theorem out_C (c : Dev nD) (t s : Fin cfg0.N) (h0 : ¬t.val % 4 = 0) (h1 : t.val % 4 = 3) (hs : s.val = t.val - 1) :
    (outsAt0 m c t.val t.isLt).1 = k0_pay3 (iblk m c 0 t) (iblk m c 3 t)
      (k0_pay2 (outsAt0 m c s.val s.isLt).2 (iblk m c 1 t) (iblk m c 2 t)) (iblk m c 4 t) := by
  rw [outsAt0_C m c t h0 h1]
  dsimp only
  rw [outsAt0_congr m c (t.val - 1) s.val (Nat.lt_of_le_of_lt (Nat.sub_le _ _) t.isLt) s.isLt hs.symm]
  exact piece_C_out c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c s.val s.isLt).2

/-- What the output's staging buffer holds after a point at the end of a K run: the epilogue's value over the
    accumulator built by the run's four steps from zero. -/
theorem out_at_flush (c : Dev nD) (t : Fin cfg0.N) (h3 : t.val % 4 = 3) :
    (outsAt0 m c t.val t.isLt).1 = k0_pay3 (iblk m c 0 t) (iblk m c 3 t)
      (k0_pay2 (k0_pay2 (k0_pay2 (k0_pay2 (k0_pay1 (F := F)) (iblk m c 1 (back t 3)) (iblk m c 2 (back t 3)))
        (iblk m c 1 (back t 2)) (iblk m c 2 (back t 2))) (iblk m c 1 (back t 1)) (iblk m c 2 (back t 1)))
        (iblk m c 1 t) (iblk m c 2 t))
      (iblk m c 4 t) := by
  rw [out_C m c t (back t 1) (by omega) h3 rfl,
    scr_B m c (back t 1) (back t 2) (by rw [back_val]; omega) (by rw [back_val]; omega)
      (by simp only [back_val]; omega),
    scr_B m c (back t 2) (back t 3) (by rw [back_val]; omega) (by rw [back_val]; omega)
      (by simp only [back_val]; omega),
    scr_A m c (back t 3) (by rw [back_val]; omega) (by rw [back_val]; omega)]

end Cert.ReferenceIdeal.Lora

end
-- ==== Proof.RFlush.lean ====
/-
  What the reference's run leaves in its region's output: the same matrix Y = X·W + P·Bt + b.

  Grid point t = 32·i + 4·j + k of the 8 × 8 × 4 grid reads rows 512·i … and columns 1024·k … of X, rows 1024·k … and
  columns 512·j … of W, and at k = 3, where it writes block (i, j) of the output back, also rows 512·i … of the projection
  P and columns 512·j … of Bt and of the bias. The output's staging buffer after such a point is zero plus the four
  partial products of the run t−3 … t added first to last, plus the rank-16 product, plus the bias. The four partial
  sums run over the four consecutive runs of 1024 along K, so together they are the one sum over all 4096
  (`sum_chunks4`), and entry (p, q) of the block is entry (512·i + p, 512·j + q) of Y. The 64 blocks tile the output.
-/
import proofs.«168310_g2000706549906588_pallasbulk_644_2_alg».proof.Proof.RHost
import proofs.«168310_g2000706549906588_pallasbulk_644_2_alg».proof.Proof.RBlock
import proofs.«168310_g2000706549906588_pallasbulk_644_2_alg».proof.Proof.RChain
import proofs.«168310_g2000706549906588_pallasbulk_644_2_alg».proof.Proof.Gen.ReferenceIdeal.Frame
import Idealize.ShloMosaic.Lib.Pipeline.Value

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.ReferenceIdeal.Lora

open Cert.ReferenceIdeal Cert.ReferenceIdeal.Gen Cert.LoraSpec

variable (m : (ℓ : Loc nD τ sig) → Buf (Elt Ideal) ℓ) (ρ : Dev nD → PrngReg)

/-- The matrix Y of the arguments, laid out as the region's output array. -/
def Y (c : Dev nD) : Buf (Elt Ideal) ((c : Thread nD τ).loc main_v5) :=
  arr (lin (X m c) (Wm m c) (proj (X m c) (Am m c)) (Btm m c) (bm m c))

/-- The index maps over the 256 points, in closed form of the point's position t = 32·i + 4·j + k. -/
theorem idx_facts : ∀ t : Fin cfg0.N,
    win0_0.index t (0 : Fin 2) = t.val / 32 ∧ win0_0.index t (1 : Fin 2) = 0
    ∧ win0_1.index t (0 : Fin 2) = t.val / 32 ∧ win0_1.index t (1 : Fin 2) = t.val % 4
    ∧ win0_2.index t (0 : Fin 2) = t.val % 4 ∧ win0_2.index t (1 : Fin 2) = t.val / 4 % 8
    ∧ win0_3.index t (0 : Fin 2) = 0 ∧ win0_3.index t (1 : Fin 2) = t.val / 4 % 8
    ∧ win0_4.index t (0 : Fin 2) = 0 ∧ win0_4.index t (1 : Fin 2) = t.val / 4 % 8
    ∧ win0_5.index t (0 : Fin 2) = t.val / 32 ∧ win0_5.index t (1 : Fin 2) = t.val / 4 % 8 :=
  (by decide +kernel : ∀ t : Fin grid0.N, _)

theorem N_lt (t : Fin cfg0.N) : t.val < 256 := lt_of_lt_of_eq t.isLt (show cfg0.N = 256 from N_0)

/-- Row p of point t's row blocks is this row of the whole matrix, -/
def row (t : Fin cfg0.N) (p : Fin 512) : Fin 4096 :=
  ⟨t.val / 32 * 512 + p.val, by have := N_lt t; have := p.isLt; omega⟩
/-- column q of its column blocks this column, -/
def col (t : Fin cfg0.N) (q : Fin 512) : Fin 4096 :=
  ⟨t.val / 4 % 8 * 512 + q.val, by have := q.isLt; omega⟩
/-- and position kk of its K blocks this position along K. -/
def kpos (t : Fin cfg0.N) (kk : Fin 1024) : Fin 4096 :=
  ⟨t.val % 4 * 1024 + kk.val, by have := kk.isLt; omega⟩

/-- The activation block at a point: rows from the point's block row on, K positions from its K block on. -/
theorem blk1_apply (c : Dev nD) (t : Fin cfg0.N) (p : Fin 512) (kk : Fin 1024) :
    (iblk m c 1 t : Vec Ideal S512x1024 .f32) (ix2 p kk) = X m c (row t p) (kpos t kk) := by
  show (V m c main_v1 : Vec Ideal S4096x4096 .f32) (((cfg0.win 1).blk t).view.emb (ix2 p kk)) = _
  have h : ((cfg0.win 1).blk t).view.emb (ix2 p kk) = ix2 (row t p) (kpos t kk) := by
    funext a; apply Fin.ext
    obtain ⟨-, -, e2, e3, -⟩ := idx_facts t
    match a with
    | ⟨0, _⟩ => show win0_1.index t (0 : Fin 2) * 512 + 1 * p.val = t.val / 32 * 512 + p.val; omega
    | ⟨1, _⟩ => show win0_1.index t (1 : Fin 2) * 1024 + 1 * kk.val = t.val % 4 * 1024 + kk.val; omega
  rw [h]
  exact V_v1_apply m c (row t p) (kpos t kk)

/-- The weight block: K positions from the point's K block on, columns from its block column on. -/
theorem blk2_apply (c : Dev nD) (t : Fin cfg0.N) (kk : Fin 1024) (q : Fin 512) :
    (iblk m c 2 t : Vec Ideal S1024x512 .f32) (ix2 kk q) = Wm m c (kpos t kk) (col t q) := by
  show (V m c main_arg1 : Vec Ideal S4096x4096 .f32) (((cfg0.win 2).blk t).view.emb (ix2 kk q)) = _
  have h : ((cfg0.win 2).blk t).view.emb (ix2 kk q) = ix2 (kpos t kk) (col t q) := by
    funext a; apply Fin.ext
    obtain ⟨-, -, -, -, e4, e5, -⟩ := idx_facts t
    match a with
    | ⟨0, _⟩ => show win0_2.index t (0 : Fin 2) * 1024 + 1 * kk.val = t.val % 4 * 1024 + kk.val; omega
    | ⟨1, _⟩ => show win0_2.index t (1 : Fin 2) * 512 + 1 * q.val = t.val / 4 % 8 * 512 + q.val; omega
  rw [h]
  exact V_arg1_apply m c (kpos t kk) (col t q)

/-- The projection block: rows of P from the point's block row on. -/
theorem blk0_apply (c : Dev nD) (t : Fin cfg0.N) (p : Fin 512) (j : Fin 16) :
    (iblk m c 0 t : Vec Ideal S512x16 .f32) (ix2 p j) = proj (X m c) (Am m c) (row t p) j := by
  show (V m c main_v4 : Vec Ideal S4096x16 .f32) (((cfg0.win 0).blk t).view.emb (ix2 p j)) = _
  have h : ((cfg0.win 0).blk t).view.emb (ix2 p j) = ix2 (row t p) j := by
    funext a; apply Fin.ext
    obtain ⟨e0, e1, -⟩ := idx_facts t
    match a with
    | ⟨0, _⟩ => show win0_0.index t (0 : Fin 2) * 512 + 1 * p.val = t.val / 32 * 512 + p.val; omega
    | ⟨1, _⟩ => show win0_0.index t (1 : Fin 2) * 16 + 1 * j.val = j.val; omega
  rw [h]
  exact V_v4_apply m c (row t p) j

/-- The up-projection block: columns of Bt from the point's block column on. -/
theorem blk3_apply (c : Dev nD) (t : Fin cfg0.N) (j : Fin 16) (q : Fin 512) :
    (iblk m c 3 t : Vec Ideal S16x512 .f32) (ix2 j q) = Btm m c j (col t q) := by
  show (V m c main_arg4 : Vec Ideal S16x4096 .f32) (((cfg0.win 3).blk t).view.emb (ix2 j q)) = _
  have h : ((cfg0.win 3).blk t).view.emb (ix2 j q) = ix2 j (col t q) := by
    funext a; apply Fin.ext
    obtain ⟨-, -, -, -, -, -, e6, e7, -⟩ := idx_facts t
    match a with
    | ⟨0, _⟩ => show win0_3.index t (0 : Fin 2) * 16 + 1 * j.val = j.val; omega
    | ⟨1, _⟩ => show win0_3.index t (1 : Fin 2) * 512 + 1 * q.val = t.val / 4 % 8 * 512 + q.val; omega
  rw [h]
  exact V_arg4_apply m c j (col t q)

/-- The bias block: the bias row from the point's block column on. -/
theorem blk4_apply (c : Dev nD) (t : Fin cfg0.N) (q : Fin 512) :
    (iblk m c 4 t : Vec Ideal S1x512 .f32) (ix2 (0 : Fin 1) q) = bm m c 0 (col t q) := by
  show (V m c main_arg2 : Vec Ideal S1x4096 .f32) (((cfg0.win 4).blk t).view.emb (ix2 (0 : Fin 1) q)) = _
  have h : ((cfg0.win 4).blk t).view.emb (ix2 (0 : Fin 1) q) = ix2 (0 : Fin 1) (col t q) := by
    funext a; apply Fin.ext
    obtain ⟨-, -, -, -, -, -, -, -, e8, e9, -⟩ := idx_facts t
    match a with
    | ⟨0, _⟩ => show win0_4.index t (0 : Fin 2) * 1 + 1 * 0 = 0; omega
    | ⟨1, _⟩ => show win0_4.index t (1 : Fin 2) * 512 + 1 * q.val = t.val / 4 % 8 * 512 + q.val; omega
  rw [h]
  exact V_arg2_apply m c (col t q)

/-- The points of one K run share their block row and block column, and their K blocks are the four runs in order. -/
theorem back_row (t : Fin cfg0.N) (h3 : t.val % 4 = 3) (κ : Nat) (hκ : κ ≤ 3) (p : Fin 512) : row (back t κ) p = row t p := by
  apply Fin.ext; show (t.val - κ) / 32 * 512 + p.val = t.val / 32 * 512 + p.val; omega
theorem back_col (t : Fin cfg0.N) (h3 : t.val % 4 = 3) (κ : Nat) (hκ : κ ≤ 3) (q : Fin 512) : col (back t κ) q = col t q := by
  apply Fin.ext; show (t.val - κ) / 4 % 8 * 512 + q.val = t.val / 4 % 8 * 512 + q.val; omega
theorem kpos_back3 (t : Fin cfg0.N) (h3 : t.val % 4 = 3) (kk : Fin 1024) : kpos (back t 3) kk = chunk 0 kk := by
  apply Fin.ext; show (t.val - 3) % 4 * 1024 + kk.val = 1024 * 0 + kk.val; omega
theorem kpos_back2 (t : Fin cfg0.N) (h3 : t.val % 4 = 3) (kk : Fin 1024) : kpos (back t 2) kk = chunk 1 kk := by
  apply Fin.ext; show (t.val - 2) % 4 * 1024 + kk.val = 1024 * 1 + kk.val; omega
theorem kpos_back1 (t : Fin cfg0.N) (h3 : t.val % 4 = 3) (kk : Fin 1024) : kpos (back t 1) kk = chunk 2 kk := by
  apply Fin.ext; show (t.val - 1) % 4 * 1024 + kk.val = 1024 * 2 + kk.val; omega
theorem kpos_last (t : Fin cfg0.N) (h3 : t.val % 4 = 3) (kk : Fin 1024) : kpos t kk = chunk 3 kk := by
  apply Fin.ext; show t.val % 4 * 1024 + kk.val = 1024 * 3 + kk.val; omega

/-- What a point at the end of a K run writes back is its block of Y. -/
theorem flushed_eq (c : Dev nD) (t : Fin cfg0.N) (hf : (cfg0.win 5).flush t = true) :
    (dats m 0 c).flushed 5 t = ((cfg0.win 5).blk t).view.read (Elt Ideal) (Y m c) := by
  have h3 : t.val % 4 = 3 := (flush0_5 t).mp hf
  show (cfg0.win 5).cut (grid0.coords t) ((dats m 0 c).after 5 t) = _
  rw [after0_5, out_at_flush m c t h3]
  funext j
  obtain ⟨p, q, rfl⟩ : ∃ (p q : Fin 512), j = ix2 p q := ⟨j 0, j 1, eq_ix2 j⟩
  refine (run_apply (iblk m c 0 t) (iblk m c 3 t) (iblk m c 4 t)
    (iblk m c 1 (back t 3)) (iblk m c 2 (back t 3)) (iblk m c 1 (back t 2)) (iblk m c 2 (back t 2))
    (iblk m c 1 (back t 1)) (iblk m c 2 (back t 1)) (iblk m c 1 t) (iblk m c 2 t) p q).trans ?_
  have hY : ((cfg0.win 5).blk t).view.read (Elt Ideal) (Y m c) (ix2 p q) = Y m c (ix2 (row t p) (col t q)) := by
    show Y m c (((cfg0.win 5).blk t).view.emb (ix2 p q)) = _
    refine congrArg (Y m c) (funext fun a => Fin.ext ?_)
    obtain ⟨-, -, -, -, -, -, -, -, -, -, e10, e11⟩ := idx_facts t
    match a with
    | ⟨0, _⟩ => show win0_5.index t (0 : Fin 2) * 512 + 1 * p.val = t.val / 32 * 512 + p.val; omega
    | ⟨1, _⟩ => show win0_5.index t (1 : Fin 2) * 512 + 1 * q.val = t.val / 4 % 8 * 512 + q.val; omega
  rw [hY]
  show _ = lin (X m c) (Wm m c) (proj (X m c) (Am m c)) (Btm m c) (bm m c) (row t p) (col t q)
  unfold lin
  rw [← sum_chunks4 (fun k => X m c (row t p) k * Wm m c k (col t q))]
  simp only [blk0_apply, blk1_apply, blk2_apply, blk3_apply, blk4_apply, back_row t h3 3 (by omega), back_row t h3 2 (by omega), back_row t h3 1 (by omega),
    back_col t h3 3 (by omega), back_col t h3 2 (by omega), back_col t h3 1 (by omega),
    kpos_back3 t h3, kpos_back2 t h3, kpos_back1 t h3, kpos_last t h3]

/-- An index of the output is in point t's block iff each coordinate is in the block's range. -/
theorem mem_blk (t : Fin cfg0.N) (i : S4096x4096.Idx) :
    i ∈ ((cfg0.win 5).blk t).view.set ↔ ∀ a : Fin 2, win0_5.index t a * S512x512.size a ≤ (i a).val ∧ (i a).val < win0_5.index t a * S512x512.size a + S512x512.size a := by
  show i ∈ ((View.whole main_v5).slice (win0_5.rect t)).set ↔ _
  rw [View.set_slice_whole, Rect.mem_set_unit]
  exact Iff.rfl

/-- The 64 blocks written back at the ends of the K runs cover the output. -/
theorem cover (i : S4096x4096.Idx) : ∃ t : Fin cfg0.N, (cfg0.win 5).flush t = true ∧ i ∈ ((cfg0.win 5).blk t).view.set := by
  have hi0 : (i 0).val < 4096 := (i 0).isLt
  have hi1 : (i 1).val < 4096 := (i 1).isLt
  let t : Fin cfg0.N := ⟨32 * ((i 0).val / 512) + 4 * ((i 1).val / 512) + 3, by rw [show cfg0.N = 256 from N_0]; omega⟩
  have ht : t.val = 32 * ((i 0).val / 512) + 4 * ((i 1).val / 512) + 3 := rfl
  refine ⟨t, (flush0_5 t).mpr (by omega), ?_⟩
  rw [mem_blk]
  obtain ⟨-, -, -, -, -, -, -, -, -, -, e10, e11⟩ := idx_facts t
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 512 ≤ (i 1).val ∧ (i 1).val < win0_5.index t (1 : Fin 2) * 512 + 512; omega

/-- So the region's output array ends holding Y. -/
theorem final (c : Dev nD) : (dats m 0 c).arrAt 5 cfg0.N = Y m c :=
  (dats m 0 c).arrAt_eq_of_cover 5 (Y m c) (flushed_eq m c) (cover)

end Cert.ReferenceIdeal.Lora

end
-- ==== Proof.RRun.lean ====
/-
  The reference's run, read: its result array ends holding the LoRA linear map of the arguments, rows regrouped to
  (8, 512), and the five argument arrays end unchanged.
-/
import proofs.«168310_g2000706549906588_pallasbulk_644_2_alg».proof.Proof.RFlush
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.ReferenceIdeal.Lora

open Cert.ReferenceIdeal Cert.ReferenceIdeal.Gen Cert.LoraSpec

variable (m : (ℓ : Loc nD τ sig) → Buf (Elt Ideal) ℓ) (ρ : Dev nD → PrngReg)

/-- The line after the region regroups the rows of the region's output: the program's result is Y reshaped. -/
theorem tail_eq (c : Dev nD) :
    Pipeline.afterTail₀ cfgs (dats m) 0 (V0 m) [hostOps1] c main_v6
      = shapeCast S8x512x4096 (Y m c) shapeCasts_S4096x4096_S8x512x4096 := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.tc.devRef main_v5) = Y m c :=
    (Pipeline.withArrays_arr spec0 launch0.win.arr_inj c _ _ 5).trans (final m c)
  rw [e]
  rfl

/-- The whole function of the arguments the program's result holds. -/
abbrev res (c : Dev nD) : FVec Ideal S8x512x4096 .f32 :=
  result (m ((c : Thread nD τ).loc main_arg0)) (m ((c : Thread nD τ).loc main_arg1)) (m ((c : Thread nD τ).loc main_arg2))
    (m ((c : Thread nD τ).loc main_arg3)) (m ((c : Thread nD τ).loc main_arg4))
    shapeCasts_S8x512x4096_S4096x4096 shapeCasts_S4096x4096_S8x512x4096

theorem res_eq (c : Dev nD) : shapeCast S8x512x4096 (Y m c) shapeCasts_S4096x4096_S8x512x4096 = res m c := rfl

/-- Every weakly fair execution of the program terminates with the result at the LoRA map of the arguments and the
    arguments unchanged. -/
theorem run : θ_run defs (onTc (τ := τ) (main (F := Ideal))) ⟨m, fun _ => 0, ρ⟩ fun r => ∀ c : Dev nD,
      r.2.mem ((c.tc : Thread nD τ).loc main_v6) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v6 (Pipeline.mem_restRefs_of main_v6 (by decide) (by decide))).trans ((tail_eq m c).trans (res_eq m c)),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).1 4).trans (((dats m 0 c).arrAt_in 4 rfl _).trans ((A_eq m c 4).trans (V_main_arg2 m c))),
      ((h c).2 main_arg3 (Pipeline.mem_restRefs_of main_arg3 (by decide) (by decide))).trans (W_main_arg3 m (dats m) c),
      ((h c).1 3).trans (((dats m 0 c).arrAt_in 3 rfl _).trans ((A_eq m c 3).trans (V_main_arg4 m c)))⟩)
    (run_main m ρ)

end Cert.ReferenceIdeal.Lora

end
-- ==== Proof.lean ====
/-
  The rank-16 LoRA linear layer  y = x·W + (x·Aᵀ)·Bt + b  on 8 × 512 activations of width 4096: the kernel against its
  reference, over the extended reals.

  The kernel narrows its operands to bf16 (the identity on extended reals), forms the projection P = x·Aᵀ on the host,
  and computes each 1024 × 1024 output block in one grid step: one product over the whole K axis of 4096, the rank-16
  product P·Bt, the bias. The reference is itself a tiled kernel: 512 × 512 output blocks, the K axis cut into four runs
  of 1024 whose partial products are added, first to last, into an accumulator that starts at zero, and an epilogue that
  adds P·Bt and the bias at the end of each run. Both results are the one matrix
      Y[r, n] = (Σₖ X[r, k]·W[k, n] + Σⱼ P[r, j]·Bt[j, n]) + b[n],   P[r, j] = Σₖ X[r, k]·A[j, k],
  with its rows regrouped to (8, 512): a sum over 4096 positions is the sum of its four runs of 1024, and zero is
  neutral — laws of addition on the extended reals that need no finiteness, so the precondition is not opened.

  The three frames are the generated frame certificates; the ideal pass rewrote nothing, so `preserves` is `True`.
-/
import proofs.«168310_g2000706549906588_pallasbulk_644_2_alg».proof.Defs
import proofs.«168310_g2000706549906588_pallasbulk_644_2_alg».proof.Proof.Gen.Kernel
import proofs.«168310_g2000706549906588_pallasbulk_644_2_alg».proof.Proof.Gen.Kernel.Frame
import proofs.«168310_g2000706549906588_pallasbulk_644_2_alg».proof.Proof.Gen.KernelIdeal
import proofs.«168310_g2000706549906588_pallasbulk_644_2_alg».proof.Proof.Gen.KernelIdeal.Frame
import proofs.«168310_g2000706549906588_pallasbulk_644_2_alg».proof.Proof.Gen.ReferenceIdeal
import proofs.«168310_g2000706549906588_pallasbulk_644_2_alg».proof.Proof.Gen.ReferenceIdeal.Frame
import proofs.«168310_g2000706549906588_pallasbulk_644_2_alg».proof.Proof.Gen.Pre_finite_inputs
import proofs.«168310_g2000706549906588_pallasbulk_644_2_alg».proof.Proof.KRun
import proofs.«168310_g2000706549906588_pallasbulk_644_2_alg».proof.Proof.RRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The ideal pass rewrote no operation. -/
theorem preserves : Cert.preserves_Kernel_KernelIdeal := trivial

/-- Both programs end with their result at the LoRA map of their arguments; the arguments agree, so the results do. -/
theorem algebraic : Cert.algebraic_KernelIdeal_ReferenceIdeal := by
  intro m ρ m' ρ' _ hagree
  refine ⟨fun c => Cert.KernelIdeal.Lora.res m c, Cert.KernelIdeal.Lora.run m ρ, ?_⟩
  refine (θ_run Cert.ReferenceIdeal.defs _ _).mono (fun _ h c => ⟨(h c).1.trans ?_, (h c).2⟩)
    (Cert.ReferenceIdeal.Lora.run m' ρ')
  obtain ⟨h0, h1, h2, h3, h4⟩ := hagree c
  show Cert.LoraSpec.result _ _ _ _ _ _ _ = Cert.LoraSpec.result _ _ _ _ _ _ _
  rw [h0, h1, h2, h3, h4]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
